-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x12 : Shape := ⟨2, ![524288, 12]⟩
abbrev S64x12 : Shape := ⟨2, ![64, 12]⟩
abbrev S64 : Shape := ⟨1, ![64]⟩
abbrev S64x64 : Shape := ⟨2, ![64, 64]⟩
abbrev S12x64 : Shape := ⟨2, ![12, 64]⟩
abbrev S12 : Shape := ⟨1, ![12]⟩
abbrev S_ : Shape := ⟨0, ![]⟩

class Facts : Prop where
  bcast_S_S524288x12 : S_.BroadcastsInDim S524288x12 (![] : Fin 0 → Fin S524288x12.rank)
  reducesTo_S524288x12_S_d0_1 : S524288x12.ReducesTo [0, 1] S_
  h_S_ : 0 < S_.numel
  bcast_S_S64x12 : S_.BroadcastsInDim S64x12 (![] : Fin 0 → Fin S64x12.rank)
  reducesTo_S64x12_S_d0_1 : S64x12.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S12x64 : S_.BroadcastsInDim S12x64 (![] : Fin 0 → Fin S12x64.rank)
  reducesTo_S12x64_S_d0_1 : S12x64.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12x64 .f32) (main_arg8 : FVec F S12 .f32) (main_v33 : IVec S_ 1) : IVec S_ 1 :=
  let main_v34 : FVec F S12x64 .f32 := Host.absf main_arg7
  let main_cst_12 : FVec F S_ .f32 := constant S_ .f32 0x7F800000#32
  let main_v35 : FVec F S12x64 .f32 := broadcastInDim S12x64 ![] bcast_S_S12x64 main_cst_12
  let main_v36 : IVec S12x64 1 := cmpf .olt main_v34 main_v35
  let main_c_13 : IVec S_ 1 := constantI S_ 1 1#1
  let main_v37 : IVec S_ 1 := (fun x v => Host.reduce IntOp.andi x v reducesTo_S12x64_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S12x64 .f32) (main_arg8 : FVec F S12 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S524288x12 .f32) (main_arg1 : FVec F S64x12 .f32) (main_arg2 : FVec F S64 .f32) (main_arg3 : FVec F S64x64 .f32) (main_arg4 : FVec F S64 .f32) (main_arg5 : FVec F S64x64 .f32) (main_arg6 : FVec F S64 .f32) (main_arg7 : FVec F S12x64 .f32) (main_arg8 : FVec F S12 .f32) : IVec S_ 1 :=
  let main_v0 : FVec F S524288x12 .f32 := Host.absf main_arg0
  let main_cst : FVec F S_ .f32 := constant S_ .f32 0x7F800000#32
  let main_v1 : FVec F S524288x12 .f32 := broadcastInDim S524288x12 ![] bcast_S_S524288x12 main_cst
  let main_v2 : IVec S524288x12 1 := cmpf .olt main_v0 main_v1
  let main_c : IVec S_ 1 := constantI S_ 1 1#1
  let main_v3 : IVec S_ 1 := (fun x v => Host.reduce IntOp.andi x v reducesTo_S524288x12_S_d0_1 h_S_) main_v2 main_c
  let main_v4 : FVec F S64x12 .f32 := Host.absf main_arg1
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S524288x12 : Shape := ⟨2, ![524288, 12]⟩
abbrev S64x12 : Shape := ⟨2, ![64, 12]⟩
abbrev S64 : Shape := ⟨1, ![64]⟩
abbrev S64x64 : Shape := ⟨2, ![64, 64]⟩
abbrev S12x64 : Shape := ⟨2, ![12, 64]⟩
abbrev S12 : Shape := ⟨1, ![12]⟩
abbrev S1x64 : Shape := ⟨2, ![1, 64]⟩
abbrev S8192x12 : Shape := ⟨2, ![8192, 12]⟩
abbrev S8192x64 : Shape := ⟨2, ![8192, 64]⟩
abbrev S1x12 : Shape := ⟨2, ![1, 12]⟩

abbrev nBuf : Space → Nat
  | .hbm => 17
  | .vmem => 18
  | .smem => 0
  | _ => 0

abbrev bufTy : (tb : Table) → Fin (tcTables nBuf tb) → BufTy
  | .hbm, ⟨0, _⟩ => ⟨S524288x12, .f32⟩
  | .hbm, ⟨1, _⟩ => ⟨S64x12, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S12x64, .f32⟩
  | .hbm, ⟨8, _⟩ => ⟨S12, .f32⟩
  | .hbm, ⟨9, _⟩ => ⟨S12x64, .f32⟩
  | .hbm, ⟨10, _⟩ => ⟨S64x64, .f32⟩
  | .hbm, ⟨11, _⟩ => ⟨S64x64, .f32⟩
  | .hbm, ⟨12, _⟩ => ⟨S64x12, .f32⟩
  | .hbm, ⟨13, _⟩ => ⟨S1x64, .f32⟩
  | .hbm, ⟨14, _⟩ => ⟨S64, .f32⟩
  | .hbm, ⟨15, _⟩ => ⟨S524288x12, .f32⟩
  | .hbm, ⟨16, _⟩ => ⟨S524288x12, .f32⟩
  | .local _ .vmem, ⟨0, _⟩ => ⟨S8192x12, .f32⟩
  | .local _ .vmem, ⟨1, _⟩ => ⟨S8192x12, .f32⟩
  | .local _ .vmem, ⟨2, _⟩ => ⟨S64x12, .f32⟩
  | .local _ .vmem, ⟨3, _⟩ => ⟨S12x64, .f32⟩
  | .local _ .vmem, ⟨4, _⟩ => ⟨S64, .f32⟩
  | .local _ .vmem, ⟨5, _⟩ => ⟨S64x64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64x64, .f32⟩
  | .local _ .vmem, ⟨10, _⟩ => ⟨S64, .f32⟩
  | .local _ .vmem, ⟨11, _⟩ => ⟨S64x12, .f32⟩
  | .local _ .vmem, ⟨12, _⟩ => ⟨S64, .f32⟩
  | .local _ .vmem, ⟨13, _⟩ => ⟨S12, .f32⟩
  | .local _ .vmem, ⟨14, _⟩ => ⟨S8192x12, .f32⟩
  | .local _ .vmem, ⟨15, _⟩ => ⟨S8192x12, .f32⟩
  | .local _ .vmem, ⟨16, _⟩ => ⟨S8192x12, .f32⟩
  | .local _ .vmem, ⟨17, _⟩ => ⟨S8192x12, .f32⟩
  | _, _ => ⟨S524288x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x12 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8192x12 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S64x12_S12x64_1_0 : S64x12.Transposes [1, 0] S12x64
  transposes_S64x64_S64x64_1_0 : S64x64.Transposes [1, 0] S64x64
  transposes_S12x64_S64x12_1_0 : S12x64.Transposes [1, 0] S64x12
  slices_S12x64_S1x64_11_0 : S12x64.Slices ![11, 0] S1x64
  shapeCasts_S1x64_S64 : S1x64.ShapeCasts S64
  inb_S8192x12_S8192x12_0_0 : ∀ a, (![0, 0] : Fin 2 → Nat) a + S8192x12.size a ≤ S8192x12.size a
  h_S8192x12 : 0 < S8192x12.numel
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x12_S64x12_0_0 : ∀ a, (![0, 0] : Fin 2 → Nat) a + S64x12.size a ≤ S64x12.size a
  h_S64x12 : 0 < S64x12.numel
  shapeCasts_S64x12_S64x12 : S64x12.ShapeCasts S64x12
  inb_S12_S12_0 : ∀ a, (![0] : Fin 1 → Nat) a + S12.size a ≤ S12.size a
  h_S12 : 0 < S12.numel
  shapeCasts_S12_S1x12 : S12.ShapeCasts S1x12
  broadcasts_S1x12_S8192x12 : S1x12.Broadcasts S8192x12
  shapeCasts_S64_S64 : S64.ShapeCasts S64
  dot_S8192x12_S12x64_S8192x64_1_0_0_1_n_n_wf : DotDims.WF S8192x12 S12x64 S8192x64 [1] [0] [0] [1] [] []
  dot_S8192x64_S64x64_S8192x64_1_0_0_1_n_n_wf : DotDims.WF S8192x64 S64x64 S8192x64 [1] [0] [0] [1] [] []
  dot_S8192x64_S64x12_S8192x12_1_0_0_1_n_n_wf : DotDims.WF S8192x64 S64x12 S8192x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x12.size a ≤ S524288x12.size a
  hwx0_0 : ∀ i : grid0.Coords, EltTy.bits .f32 = 32 ∨ (Rect.block (s := S524288x12) S8192x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x12.size a ≤ S64x12.size a
  hwx0_1 : ∀ i : grid0.Coords, EltTy.bits .f32 = 32 ∨ (Rect.block (s := S64x12) S64x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x12.size a ≤ S64x12.size a
  hwx0_10 : ∀ i : grid0.Coords, EltTy.bits .f32 = 32 ∨ (Rect.block (s := S64x12) S64x12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S12.size a ≤ S12.size a
  hwx0_12 : ∀ i : grid0.Coords, EltTy.bits .f32 = 32 ∨ (Rect.block (s := S12) S12.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8192x12.size a ≤ S524288x12.size a
  hwx0_13 : ∀ i : grid0.Coords, EltTy.bits .f32 = 32 ∨ (Rect.block (s := S524288x12) S8192x12.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8192x12.size a ≤ S524288x12.size a
  hwx0_14 : ∀ i : grid0.Coords, EltTy.bits .f32 = 32 ∨ (Rect.block (s := S524288x12) S8192x12.size (cc0_transform_14 i) (hinb0_14 i)).WholeWords (EltTy.packing .f32)

variable [Facts₀]

def dot_S8192x12_S12x64_S8192x64_1_0_0_1_n_n : DotDims S8192x12 S12x64 S8192x64 where
  lhsContracting := [1]
  rhsContracting := [0]
  lhsNonContracting := [0]
  rhsNonContracting := [1]
  lhsBatch := []
  rhsBatch := []
  wf := dot_S8192x12_S12x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x12_S8192x12_1_0_0_1_n_n : DotDims S8192x64 S64x12 S8192x12 where
  lhsContracting := [1]
  rhsContracting := [0]
  lhsNonContracting := [0]
  rhsNonContracting := [1]
  lhsBatch := []
  rhsBatch := []
  wf := dot_S8192x64_S64x12_S8192x12_1_0_0_1_n_n_wf

abbrev win0_0 : Pipeline.Window sig grid0 :=
  Pipeline.Window.ofSpec (Memref.whole main_arg0) S8192x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S64x12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S12.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S8192x12.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S8192x12.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S524288x12 : Shape := ⟨2, ![524288, 12]⟩
abbrev S64x12 : Shape := ⟨2, ![64, 12]⟩
abbrev S64 : Shape := ⟨1, ![64]⟩
abbrev S64x64 : Shape := ⟨2, ![64, 64]⟩
abbrev S12x64 : Shape := ⟨2, ![12, 64]⟩
abbrev S12 : Shape := ⟨1, ![12]⟩
abbrev S524288x64 : Shape := ⟨2, ![524288, 64]⟩
abbrev S1x64 : Shape := ⟨2, ![1, 64]⟩
abbrev S_ : Shape := ⟨0, ![]⟩
abbrev S1x12 : Shape := ⟨2, ![1, 12]⟩

abbrev nBuf : Space → Nat
  | .hbm => 89
  | .vmem => 0
  | .smem => 0
  | _ => 0

abbrev bufTy : (tb : Table) → Fin (tcTables nBuf tb) → BufTy
  | .hbm, ⟨0, _⟩ => ⟨S524288x12, .f32⟩
  | .hbm, ⟨1, _⟩ => ⟨S64x12, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S12x64, .f32⟩
  | .hbm, ⟨8, _⟩ => ⟨S12, .f32⟩
  | .hbm, ⟨9, _⟩ => ⟨S12x64, .f32⟩
  | .hbm, ⟨10, _⟩ => ⟨S524288x64, .f32⟩
  | .hbm, ⟨11, _⟩ => ⟨S1x64, .f32⟩
  | .hbm, ⟨12, _⟩ => ⟨S524288x64, .f32⟩
  | .hbm, ⟨13, _⟩ => ⟨S524288x64, .f32⟩
  | .hbm, ⟨14, _⟩ => ⟨S_, .f32⟩
  | .hbm, ⟨15, _⟩ => ⟨S524288x64, .f32⟩
  | .hbm, ⟨16, _⟩ => ⟨S524288x64, .i1⟩
  | .hbm, ⟨17, _⟩ => ⟨S_, .f32⟩
  | .hbm, ⟨18, _⟩ => ⟨S524288x64, .f32⟩
  | .hbm, ⟨19, _⟩ => ⟨S524288x64, .f32⟩
  | .hbm, ⟨20, _⟩ => ⟨S524288x64, .f32⟩
  | .hbm, ⟨21, _⟩ => ⟨S64x64, .f32⟩
  | .hbm, ⟨22, _⟩ => ⟨S524288x64, .f32⟩
  | .hbm, ⟨23, _⟩ => ⟨S1x64, .f32⟩
  | .hbm, ⟨24, _⟩ => ⟨S524288x64, .f32⟩
  | .hbm, ⟨25, _⟩ => ⟨S524288x64, .f32⟩
  | .hbm, ⟨26, _⟩ => ⟨S_, .f32⟩
  | .hbm, ⟨27, _⟩ => ⟨S524288x64, .f32⟩
  | .hbm, ⟨28, _⟩ => ⟨S524288x64, .i1⟩
  | .hbm, ⟨29, _⟩ => ⟨S_, .f32⟩
  | .hbm, ⟨30, _⟩ => ⟨S524288x64, .f32⟩
  | .hbm, ⟨31, _⟩ => ⟨S524288x64, .f32⟩
  | .hbm, ⟨32, _⟩ => ⟨S524288x64, .f32⟩
  | .hbm, ⟨33, _⟩ => ⟨S64x64, .f32⟩
  | .hbm, ⟨34, _⟩ => ⟨S524288x64, .f32⟩
  | .hbm, ⟨35, _⟩ => ⟨S1x64, .f32⟩
  | .hbm, ⟨36, _⟩ => ⟨S524288x64, .f32⟩
  | .hbm, ⟨37, _⟩ => ⟨S524288x64, .f32⟩
  | .hbm, ⟨38, _⟩ => ⟨S_, .f32⟩
  | .hbm, ⟨39, _⟩ => ⟨S524288x64, .f32⟩
  | .hbm, ⟨40, _⟩ => ⟨S524288x64, .i1⟩
  | .hbm, ⟨41, _⟩ => ⟨S_, .f32⟩
  | .hbm, ⟨42, _⟩ => ⟨S524288x64, .f32⟩
  | .hbm, ⟨43, _⟩ => ⟨S524288x64, .f32⟩
  | .hbm, ⟨44, _⟩ => ⟨S524288x64, .f32⟩
  | .hbm, ⟨45, _⟩ => ⟨S64x12, .f32⟩
  | .hbm, ⟨46, _⟩ => ⟨S524288x12, .f32⟩
  | .hbm, ⟨47, _⟩ => ⟨S1x12, .f32⟩
  | .hbm, ⟨48, _⟩ => ⟨S524288x12, .f32⟩
  | .hbm, ⟨49, _⟩ => ⟨S524288x12, .f32⟩
  | .hbm, ⟨50, _⟩ => ⟨S_, .f32⟩
  | .hbm, ⟨51, _⟩ => ⟨S524288x64, .f32⟩
  | .hbm, ⟨52, _⟩ => ⟨S524288x64, .i1⟩
  | .hbm, ⟨53, _⟩ => ⟨S_, .f32⟩
  | .hbm, ⟨54, _⟩ => ⟨S_, .f32⟩
  | .hbm, ⟨55, _⟩ => ⟨S524288x64, .f32⟩
  | .hbm, ⟨56, _⟩ => ⟨S524288x64, .f32⟩
  | .hbm, ⟨57, _⟩ => ⟨S524288x64, .f32⟩
  | .hbm, ⟨58, _⟩ => ⟨S524288x64, .f32⟩
  | .hbm, ⟨59, _⟩ => ⟨S_, .f32⟩
  | .hbm, ⟨60, _⟩ => ⟨S524288x64, .f32⟩
  | .hbm, ⟨61, _⟩ => ⟨S524288x64, .i1⟩
  | .hbm, ⟨62, _⟩ => ⟨S_, .f32⟩
  | .hbm, ⟨63, _⟩ => ⟨S_, .f32⟩
  | .hbm, ⟨64, _⟩ => ⟨S524288x64, .f32⟩
  | .hbm, ⟨65, _⟩ => ⟨S524288x64, .f32⟩
  | .hbm, ⟨66, _⟩ => ⟨S524288x64, .f32⟩
  | .hbm, ⟨67, _⟩ => ⟨S524288x64, .f32⟩
  | .hbm, ⟨68, _⟩ => ⟨S_, .f32⟩
  | .hbm, ⟨69, _⟩ => ⟨S524288x64, .f32⟩
  | .hbm, ⟨70, _⟩ => ⟨S524288x64, .i1⟩
  | .hbm, ⟨71, _⟩ => ⟨S_, .f32⟩
  | .hbm, ⟨72, _⟩ => ⟨S_, .f32⟩
  | .hbm, ⟨73, _⟩ => ⟨S524288x64, .f32⟩
  | .hbm, ⟨74, _⟩ => ⟨S524288x64, .f32⟩
  | .hbm, ⟨75, _⟩ => ⟨S524288x64, .f32⟩
  | .hbm, ⟨76, _⟩ => ⟨S524288x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S524288x64, .f32⟩
  | .hbm, ⟨81, _⟩ => ⟨S524288x64, .f32⟩
  | .hbm, ⟨82, _⟩ => ⟨S524288x64, .f32⟩
  | .hbm, ⟨83, _⟩ => ⟨S524288x64, .f32⟩
  | .hbm, ⟨84, _⟩ => ⟨S524288x64, .f32⟩
  | .hbm, ⟨85, _⟩ => ⟨S524288x64, .f32⟩
  | .hbm, ⟨86, _⟩ => ⟨S524288x12, .f32⟩
  | .hbm, ⟨87, _⟩ => ⟨S524288x12, .f32⟩
  | .hbm, ⟨88, _⟩ => ⟨S524288x12, .f32⟩
  | _, _ => ⟨S524288x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_cst_7 : Ref sig .tc := ⟨.hbm, 54, rfl⟩
abbrev main_call3_v0 : Ref sig .tc := ⟨.hbm, 55, rfl⟩
abbrev main_call3_v1 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_cst_10 : Ref sig .tc := ⟨.hbm, 63, rfl⟩
abbrev main_call4_v0 : Ref sig .tc := ⟨.hbm, 64, rfl⟩
abbrev main_call4_v1 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_cst_13 : Ref sig .tc := ⟨.hbm, 72, rfl⟩
abbrev main_call5_v0 : Ref sig .tc := ⟨.hbm, 73, rfl⟩
abbrev main_call5_v1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  transposes_S64x12_S12x64_1_0 : S64x12.Transposes [1, 0] S12x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  transposes_S64x64_S64x64_1_0 : S64x64.Transposes [1, 0] S64x64
  transposes_S12x64_S64x12_1_0 : S12x64.Transposes [1, 0] S64x12
  bcast_S12_S1x12_1 : S12.BroadcastsInDim S1x12 (![1] : Fin 1 → Fin S1x12.rank)
  bcast_S1x12_S524288x12_0_1 : S1x12.BroadcastsInDim S524288x12 (![0, 1] : Fin 2 → Fin S524288x12.rank)
  slices_S12x64_S1x64_11_0 : S12x64.Slices ![11, 0] S1x64
  shapeCasts_S1x64_S64 : S1x64.ShapeCasts S64
  dot_S524288x12_S12x64_S524288x64_1_0_0_1_n_n_wf : DotDims.WF S524288x12 S12x64 S524288x64 [1] [0] [0] [1] [] []
  dot_S524288x64_S64x64_S524288x64_1_0_0_1_n_n_wf : DotDims.WF S524288x64 S64x64 S524288x64 [1] [0] [0] [1] [] []
  dot_S524288x64_S64x12_S524288x12_1_0_0_1_n_n_wf : DotDims.WF S524288x64 S64x12 S524288x12 [1] [0] [0] [1] [] []

variable [Facts₀]

def dot_S524288x12_S12x64_S524288x64_1_0_0_1_n_n : DotDims S524288x12 S12x64 S524288x64 where
  lhsContracting := [1]
  rhsContracting := [0]
  lhsNonContracting := [0]
  rhsNonContracting := [1]
  lhsBatch := []
  rhsBatch := []
  wf := dot_S524288x12_S12x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x12_S524288x12_1_0_0_1_n_n : DotDims S524288x64 S64x12 S524288x12 where
  lhsContracting := [1]
  rhsContracting := [0]
  lhsNonContracting := [0]
  rhsNonContracting := [1]
  lhsBatch := []
  rhsBatch := []
  wf := dot_S524288x64_S64x12_S524288x12_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibRowBias.lean ====
/-
  A vector of `N` entries laid along the columns of an `M × N` matrix — cast to one row `[1, N]`, then that row
  repeated down the `M` rows — holds at `(p, q)` the vector's entry `q`, whatever the row `p`.
-/
import Idealize.ShloMosaic.Lib.ValueIdx
import Idealize.ShloMosaic.Lib.Pipeline.Value

namespace Idealize.ShloMosaic.RowBias

open Idealize.ShloMosaic Idealize.ShloMosaic.ValueIdx

/-- Entry `(p, q)` of the repeated row is entry `q` of the vector. -/
theorem rowBias_apply {α : Type} {M N : Nat} (c : (⟨1, ![N]⟩ : Shape).Idx → α)
    (hs : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ c hs) hb (ix2 p q) = c (ix1 q) := by
  -- the repeated row is read at row 0 of the one-row matrix, same column
  refine (broadcastTo_apply _ hb (ix2 p q) (ix2 (⟨0, Nat.one_pos⟩ : Fin 1) q) ?_).trans ?_
  · intro a
    match a with
    | ⟨0, _⟩ => show 0 = if (1 : Nat) = 1 then 0 else _; rw [if_pos rfl]
    | ⟨1, _⟩ =>
      show q.val = if N = 1 then 0 else q.val
      split_ifs with h
      · have := q.isLt; omega
      · rfl
  -- and the one-row matrix at (0, q) is the vector at q
  · refine (shapeCast_addUnit_apply (n := 1) ![N] c hs (ix2 (⟨0, Nat.one_pos⟩ : Fin 1) q)).trans (congrArg c ?_)
    funext a
    match a with
    | ⟨0, _⟩ => rfl

/-- The whole matrix, as a function of its index: the vector at the column coordinate. -/
theorem rowBias_eq {α : Type} {M N : Nat} (c : (⟨1, ![N]⟩ : Shape).Idx → α)
    (hs : (⟨1, ![N]⟩ : Shape).ShapeCasts ⟨2, ![1, N]⟩) (hb : (⟨2, ![1, N]⟩ : Shape).Broadcasts ⟨2, ![M, N]⟩) :
    broadcastTo ⟨2, ![M, N]⟩ (shapeCast ⟨2, ![1, N]⟩ c hs) hb = fun i => c (ix1 (i 1)) := by
  funext i
  rw [eq_ix2 i]
  exact rowBias_apply c hs hb (i 0) (i 1)

end Idealize.ShloMosaic.RowBias
-- ==== Proof.RowNet.lean ====
/-
  One sample of the network, over the extended reals.

  The forward pass is three hidden layers of 64 units and an output layer of 12, each layer an affine map
  `v ↦ v · w + c`, the hidden ones followed by the leaky rectifier `a(z) = z` for `z > 0` and `0.2 · z` otherwise:
      z₁ = x · f₁ + c₁,  z₂ = a(z₁) · f₂ + c₂,  z₃ = a(z₂) · f₃ + c₃,  residual = a(z₃) · f₄ + c₄.
  The last row of the sample's Jacobian d residual / d x is the row vector `ℓ₄` (the last output unit's weights)
  carried back through the layers, each step gated by the rectifier's slope `a'(z) = 1` for `z > 0` and `0.2` otherwise:
      u₃ = ℓ₄ ⊙ a'(z₃),  u₂ = (u₃ · g₃) ⊙ a'(z₂),  u₁ = (u₂ · g₂) ⊙ a'(z₁),  last row = u₁ · g₁,
  and the second result is `log |last row|`, entry by entry.

  A `Net` holds the twelve parameter readers: `f` and `g` read the same weight matrix along opposite axes (the forward
  pass multiplies by the transposed weights, the backward pass by the weights as stored). Every sum is a finite sum of
  products in the extended reals; nothing here needs the entries to be finite.
-/
import Idealize.ShloMosaic.PureOps.Ideal
import Idealize.ShloMosaic.Lib.ValueIdx

noncomputable section

open scoped BigOperators

namespace Cert.MlpRow

open Idealize.ShloMosaic Idealize.ShloMosaic.ValueIdx

/-- `z > 0`, as the one-bit word of the comparison against the zero word. -/
def pos (z : EReal) : BitVec 1 :=
  FloatOps.cmpf (F := Ideal) (φ := .f32) .ogt z (FloatOps.ofBits (F := Ideal) .f32 0x00000000#32)

/-- The leaky rectifier: `z` where `z > 0`, the slope word (binary32 nearest 0.2) times `z` elsewhere. -/
def act (z : EReal) : EReal :=
  Scalar.select (pos z) z (FloatOps.mulf (F := Ideal) (φ := .f32) (FloatOps.ofBits (F := Ideal) .f32 0x3E4CCCCD#32) z)

/-- Its slope: the one word where `z > 0`, the slope word elsewhere. -/
def dact (z : EReal) : EReal :=
  Scalar.select (pos z) (FloatOps.ofBits (F := Ideal) .f32 0x3F800000#32) (FloatOps.ofBits (F := Ideal) .f32 0x3E4CCCCD#32)

/-- The network's parameters as readers: `fᵢ k j` the weight from unit `k` of layer `i − 1` to unit `j` of layer `i`,
    `cᵢ` the biases, `l4` the weights of the last output unit, `gᵢ k j` the weight from unit `j` of layer `i − 1` to
    unit `k` of layer `i`. -/
structure Net where
  f1 : Fin 12 → Fin 64 → EReal
  c1 : Fin 64 → EReal
  f2 : Fin 64 → Fin 64 → EReal
  c2 : Fin 64 → EReal
  f3 : Fin 64 → Fin 64 → EReal
  c3 : Fin 64 → EReal
  f4 : Fin 64 → Fin 12 → EReal
  c4 : Fin 12 → EReal
  l4 : Fin 64 → EReal
  g3 : Fin 64 → Fin 64 → EReal
  g2 : Fin 64 → Fin 64 → EReal
  g1 : Fin 64 → Fin 12 → EReal

namespace Net

variable (n : Net) (xr : Fin 12 → EReal)

/-- The first hidden layer before its rectifier. -/
def z1 (j : Fin 64) : EReal := (∑ k : Fin 12, xr k * n.f1 k j) + n.c1 j
/-- The second. -/
def z2 (j : Fin 64) : EReal := (∑ k : Fin 64, act (n.z1 xr k) * n.f2 k j) + n.c2 j
/-- The third. -/
def z3 (j : Fin 64) : EReal := (∑ k : Fin 64, act (n.z2 xr k) * n.f3 k j) + n.c3 j
/-- The output layer: the first result's row. -/
def resid (j : Fin 12) : EReal := (∑ k : Fin 64, act (n.z3 xr k) * n.f4 k j) + n.c4 j

/-- The last output unit's weights gated by the third layer's slopes. -/
def u3 (j : Fin 64) : EReal := n.l4 j * dact (n.z3 xr j)
/-- Carried back through the third layer's weights, gated by the second layer's slopes. -/
def u2 (j : Fin 64) : EReal := (∑ k : Fin 64, n.u3 xr k * n.g3 k j) * dact (n.z2 xr j)
/-- Carried back through the second layer's weights, gated by the first layer's slopes. -/
def u1 (j : Fin 64) : EReal := (∑ k : Fin 64, n.u2 xr k * n.g2 k j) * dact (n.z1 xr j)
/-- Carried back through the first layer's weights: the last row of the Jacobian. -/
def lastRow (j : Fin 12) : EReal := ∑ k : Fin 64, n.u1 xr k * n.g1 k j
/-- The second result's row: the logarithm of the absolute value, entry by entry. -/
def logdet (j : Fin 12) : EReal :=
  FloatOps.log (F := Ideal) (φ := .f32) (FloatOps.absf (F := Ideal) (φ := .f32) (n.lastRow xr j))

/-- The first result over `M` samples: row `r` is `resid` of row `r` of the samples. -/
def residArr {M : Nat} (x : (⟨2, ![M, 12]⟩ : Shape).Idx → EReal) : (⟨2, ![M, 12]⟩ : Shape).Idx → EReal :=
  fun i => n.resid (fun k => x (ix2 (i 0) k)) (i 1)

/-- The second result over `M` samples: row `r` is `logdet` of row `r` of the samples. -/
def logdetArr {M : Nat} (x : (⟨2, ![M, 12]⟩ : Shape).Idx → EReal) : (⟨2, ![M, 12]⟩ : Shape).Idx → EReal :=
  fun i => n.logdet (fun k => x (ix2 (i 0) k)) (i 1)

theorem residArr_ix2 {M : Nat} (x : (⟨2, ![M, 12]⟩ : Shape).Idx → EReal) (p : Fin M) (q : Fin 12) :
    n.residArr x (ix2 p q) = n.resid (fun k => x (ix2 p k)) q := rfl

theorem logdetArr_ix2 {M : Nat} (x : (⟨2, ![M, 12]⟩ : Shape).Idx → EReal) (p : Fin M) (q : Fin 12) :
    n.logdetArr x (ix2 p q) = n.logdet (fun k => x (ix2 p k)) q := rfl

/-- Two sample matrices whose rows `i 0` and `i' 0` agree give the same first result there. -/
theorem residArr_rows {M M' : Nat} (x : (⟨2, ![M, 12]⟩ : Shape).Idx → EReal) (x' : (⟨2, ![M', 12]⟩ : Shape).Idx → EReal)
    (i : (⟨2, ![M, 12]⟩ : Shape).Idx) (i' : (⟨2, ![M', 12]⟩ : Shape).Idx) (h1 : i 1 = i' 1)
    (hx : ∀ k : Fin 12, x (ix2 (i 0) k) = x' (ix2 (i' 0) k)) : n.residArr x i = n.residArr x' i' := by
  unfold residArr
  rw [h1, funext hx]

/-- And the same second result. -/
theorem logdetArr_rows {M M' : Nat} (x : (⟨2, ![M, 12]⟩ : Shape).Idx → EReal) (x' : (⟨2, ![M', 12]⟩ : Shape).Idx → EReal)
    (i : (⟨2, ![M, 12]⟩ : Shape).Idx) (i' : (⟨2, ![M', 12]⟩ : Shape).Idx) (h1 : i 1 = i' 1)
    (hx : ∀ k : Fin 12, x (ix2 (i 0) k) = x' (ix2 (i' 0) k)) : n.logdetArr x i = n.logdetArr x' i' := by
  unfold logdetArr
  rw [h1, funext hx]

end Net

/-- The network's parameters as the eight parameter arrays hold them — `W₁ : [64, 12]`, `b₁ : [64]`, `W₂, W₃ : [64, 64]`,
    `b₂, b₃ : [64]`, `W₄ : [12, 64]`, `b₄ : [12]`, each weight matrix stored as (unit of its layer, unit of the layer
    before): a forward weight from unit `k` to unit `j` is the matrix at `(j, k)`, a backward one the matrix at `(k, j)`,
    and the last output unit's weights are row 11 of `W₄`. -/
def netOfArgs (W1 : (⟨2, ![64, 12]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![12, 64]⟩ : Shape).Idx → EReal) (b4 : (⟨1, ![12]⟩ : Shape).Idx → EReal) : Net where
  f1 k j := W1 (ix2 j k)
  c1 j := b1 (ix1 j)
  f2 k j := W2 (ix2 j k)
  c2 j := b2 (ix1 j)
  f3 k j := W3 (ix2 j k)
  c3 j := b3 (ix1 j)
  f4 k j := W4 (ix2 j k)
  c4 j := b4 (ix1 j)
  l4 k := W4 (ix2 (⟨11, by decide⟩ : Fin 12) k)
  g3 k j := W3 (ix2 k j)
  g2 k j := W2 (ix2 k j)
  g1 k j := W1 (ix2 k j)

end Cert.MlpRow

end
-- ==== Proof.KernelRows.lean ====
/-
  The kernel body's values, read one entry at a time.

  The body works on a block of 8192 samples. Each of its named intermediate values is a matrix with one row per sample,
  and entry `(p, q)` of each depends on row `p` of the sample block only: a matrix-unit product into the zero
  accumulator is the plain sum over the contracted coordinate (the narrowing of its operands to bf16 is the identity
  on the extended reals), a bias is added along the columns, the rectifier and its slope act entry by entry. Composed,
  the two stored blocks are the network's two results (`Cert.MlpRow.Net`) of the block's rows, the parameters read
  from the twelve parameter blocks.
-/
import proofs.«181091_j37460704756280_1_alg».proof.Proof.Gen.KernelIdeal.Skeleton
import proofs.«181091_j37460704756280_1_alg».proof.Proof.LibRowDims
import proofs.«181091_j37460704756280_1_alg».proof.Proof.LibRowBias
import proofs.«181091_j37460704756280_1_alg».proof.Proof.RowNet
import Idealize.ShloMosaic.Lib.Pipeline.Value

noncomputable section

open scoped BigOperators

namespace Cert.KernelIdeal.Rows

open Idealize.ShloMosaic Idealize.ShloMosaic.TcCoe Idealize.ShloMosaic.ValueIdx
open Idealize.ShloMosaic.RowDims Idealize.ShloMosaic.RowBias
open Cert.KernelIdeal Cert.KernelIdeal.Gen Cert.MlpRow

/-! ## The four contraction shapes are plain `rows × inner` by `inner × columns` products -/

theorem dot_12_64 : dot_S8192x12_S12x64_S8192x64_1_0_0_1_n_n = DotDims.plain 8192 12 64 := rfl
theorem dot_64_64 : dot_S8192x64_S64x64_S8192x64_1_0_0_1_n_n = DotDims.plain 8192 64 64 := rfl
theorem dot_64_12 : dot_S8192x64_S64x12_S8192x12_1_0_0_1_n_n = DotDims.plain 8192 64 12 := rfl

/-! ## Each intermediate value at an entry -/

/-- The first hidden layer before its rectifier: row `p` of the samples times the first weight block, plus the bias. -/
theorem pay2_apply (v0 : Vec Ideal S8192x12 .f32) (v1 : Vec Ideal S12x64 .f32) (v3 : Vec Ideal S64 .f32)
    (p : Fin 8192) (q : Fin 64) :
    k0_pay2 (F := Ideal) v0 v1 v3 (ix2 p q) = (∑ k : Fin 12, v0 (ix2 p k) * v1 (ix2 k q)) + v3 (ix1 q) := by
  unfold k0_pay2
  rw [shapeCast_self, dot_12_64]
  refine congrArg₂ (· + ·) ?_ ?_
  · exact matmul_plain_zero_apply none _ _ p q
  · exact rowBias_apply v3 _ _ p q

/-- The second: the rectified first layer's row times the second weight block, plus the bias. -/
theorem pay3_apply (v0 : Vec Ideal S8192x12 .f32) (v1 : Vec Ideal S12x64 .f32) (v3 : Vec Ideal S64 .f32)
    (v15 : Vec Ideal S64x64 .f32) (v17 : Vec Ideal S64 .f32) (p : Fin 8192) (q : Fin 64) :
    k0_pay3 (F := Ideal) v0 v1 v3 v15 v17 (ix2 p q)
      = (∑ k : Fin 64, act (k0_pay2 (F := Ideal) v0 v1 v3 (ix2 p k)) * v15 (ix2 k q)) + v17 (ix1 q) := by
  unfold k0_pay3
  rw [shapeCast_self, dot_64_64]
  refine congrArg₂ (· + ·) ?_ ?_
  · exact matmul_plain_zero_apply none _ _ p q
  · exact rowBias_apply v17 _ _ p q

/-- The third. -/
theorem pay4_apply (v0 : Vec Ideal S8192x12 .f32) (v1 : Vec Ideal S12x64 .f32) (v3 : Vec Ideal S64 .f32)
    (v15 : Vec Ideal S64x64 .f32) (v17 : Vec Ideal S64 .f32) (v29 : Vec Ideal S64x64 .f32) (v31 : Vec Ideal S64 .f32)
    (p : Fin 8192) (q : Fin 64) :
    k0_pay4 (F := Ideal) v0 v1 v3 v15 v17 v29 v31 (ix2 p q)
      = (∑ k : Fin 64, act (k0_pay3 (F := Ideal) v0 v1 v3 v15 v17 (ix2 p k)) * v29 (ix2 k q)) + v31 (ix1 q) := by
  unfold k0_pay4
  rw [shapeCast_self, dot_64_64]
  refine congrArg₂ (· + ·) ?_ ?_
  · exact matmul_plain_zero_apply none _ _ p q
  · exact rowBias_apply v31 _ _ p q

/-- The sign test of the third layer, entry by entry. -/
theorem pay5_apply (v0 : Vec Ideal S8192x12 .f32) (v1 : Vec Ideal S12x64 .f32) (v3 : Vec Ideal S64 .f32)
    (v15 : Vec Ideal S64x64 .f32) (v17 : Vec Ideal S64 .f32) (v29 : Vec Ideal S64x64 .f32) (v31 : Vec Ideal S64 .f32)
    (i : S8192x64.Idx) :
    k0_pay5 (F := Ideal) v0 v1 v3 v15 v17 v29 v31 i = pos (k0_pay4 (F := Ideal) v0 v1 v3 v15 v17 v29 v31 i) := rfl

/-- The output layer, from the third layer `v37` and its sign test `v39`: the rectified row times the last weight
    block, plus the bias. -/
theorem pay6_apply (v37 : FVec Ideal S8192x64 .f32) (v39 : IVec S8192x64 1) (v43 : Vec Ideal S64x12 .f32)
    (v45 : Vec Ideal S12 .f32) (p : Fin 8192) (q : Fin 12) :
    k0_pay6 (F := Ideal) v37 v39 v43 v45 (ix2 p q)
      = (∑ k : Fin 64, Scalar.select (v39 (ix2 p k)) (v37 (ix2 p k))
            (FloatOps.mulf (F := Ideal) (φ := .f32) (FloatOps.ofBits (F := Ideal) .f32 0x3E4CCCCD#32) (v37 (ix2 p k)))
          * v43 (ix2 k q)) + v45 (ix1 q) := by
  unfold k0_pay6
  rw [shapeCast_self, dot_64_12]
  refine congrArg₂ (· + ·) ?_ ?_
  · exact matmul_plain_zero_apply none _ _ p q
  · exact rowBias_apply v45 _ _ p q

/-- The rectifier's slope at the first layer, entry by entry. -/
theorem pay7_apply (v9 : FVec Ideal S8192x64 .f32) (i : S8192x64.Idx) : k0_pay7 (F := Ideal) v9 i = dact (v9 i) := rfl

/-- The backward row after the third layer's weights: the last unit's weights gated by the third layer's slopes, times
    the third weight block, gated by the second layer's slopes. -/
theorem pay8_apply (v23 v37 : FVec Ideal S8192x64 .f32) (v68 : Vec Ideal S64 .f32) (v73 : Vec Ideal S64x64 .f32)
    (p : Fin 8192) (q : Fin 64) :
    k0_pay8 (F := Ideal) v23 v37 v68 v73 (ix2 p q)
      = (∑ k : Fin 64, (v68 (ix1 k) * dact (v37 (ix2 p k))) * v73 (ix2 k q)) * dact (v23 (ix2 p q)) := by
  unfold k0_pay8
  rw [shapeCast_self, dot_64_64, rowBias_eq]
  refine congrArg₂ (fun a b : EReal => a * b) ?_ rfl
  exact matmul_plain_zero_apply none _ _ p q

/-- The second stored block: the backward row through the second and first weight blocks, then `log |·|`. -/
theorem pay1_apply (v57 v77 : FVec Ideal S8192x64 .f32) (v78 : Vec Ideal S64x64 .f32) (v83 : Vec Ideal S64x12 .f32)
    (p : Fin 8192) (q : Fin 12) :
    k0_pay1 (F := Ideal) v57 v77 v78 v83 (ix2 p q)
      = FloatOps.log (F := Ideal) (φ := .f32) (FloatOps.absf (F := Ideal) (φ := .f32)
          (∑ k : Fin 64, ((∑ k' : Fin 64, v77 (ix2 p k') * v78 (ix2 k' k)) * v57 (ix2 p k)) * v83 (ix2 k q))) := by
  unfold k0_pay1
  rw [dot_64_64, dot_64_12]
  refine congrArg (fun z => FloatOps.log (F := Ideal) (φ := .f32) (FloatOps.absf (F := Ideal) (φ := .f32) z)) ?_
  refine (matmul_plain_zero_apply none _ _ p q).trans (Finset.sum_congr rfl fun k _ => ?_)
  refine congrArg₂ (fun a b : EReal => a * b) ?_ rfl
  refine congrArg₂ (fun a b : EReal => a * b) ?_ rfl
  exact matmul_plain_zero_apply none _ _ p k

end Cert.KernelIdeal.Rows

end
-- ==== Proof.KernelNet.lean ====
/-
  The two blocks the kernel body stores are the network's two results of the sample block's rows.

  The body reads thirteen blocks: the samples `x0`, and twelve parameter blocks — each hidden layer's weights twice,
  as stored (`x1`, `x4`, `x7`: read by the backward pass) and transposed (`x2`, `x5`, `x8`: read by the forward pass),
  the biases (`x3`, `x6`, `x9`, `x12`), the output layer's weights transposed (`x10`) and its last row (`x11`).
  `netOfBlocks` reads the network's parameters off those blocks entry by entry; with it the first stored block is
  `Net.residArr` and the second `Net.logdetArr` of the sample block.
-/
import proofs.«181091_j37460704756280_1_alg».proof.Proof.KernelRows

noncomputable section

open scoped BigOperators

namespace Cert.KernelIdeal.Rows

open Idealize.ShloMosaic Idealize.ShloMosaic.TcCoe Idealize.ShloMosaic.ValueIdx
open Cert.KernelIdeal Cert.KernelIdeal.Gen Cert.MlpRow

/-- The network's parameters as the kernel's twelve parameter blocks hold them. -/
def netOfBlocks (x1 : Vec Ideal S64x12 .f32) (x2 : Vec Ideal S12x64 .f32) (x3 : Vec Ideal S64 .f32)
    (x4 : Vec Ideal S64x64 .f32) (x5 : Vec Ideal S64x64 .f32) (x6 : Vec Ideal S64 .f32) (x7 : Vec Ideal S64x64 .f32)
    (x8 : Vec Ideal S64x64 .f32) (x9 : Vec Ideal S64 .f32) (x10 : Vec Ideal S64x12 .f32) (x11 : Vec Ideal S64 .f32)
    (x12 : Vec Ideal S12 .f32) : Net where
  f1 k j := x2 (ix2 k j)
  c1 j := x3 (ix1 j)
  f2 k j := x5 (ix2 k j)
  c2 j := x6 (ix1 j)
  f3 k j := x8 (ix2 k j)
  c3 j := x9 (ix1 j)
  f4 k j := x10 (ix2 k j)
  c4 j := x12 (ix1 j)
  l4 k := x11 (ix1 k)
  g3 k j := x7 (ix2 k j)
  g2 k j := x4 (ix2 k j)
  g1 k j := x1 (ix2 k j)

/-- The first stored block: the output layer of the rectified third layer, which is the forward pass of each row. -/
theorem resid_block (x0 : Vec Ideal S8192x12 .f32) (x1 : Vec Ideal S64x12 .f32) (x2 : Vec Ideal S12x64 .f32) (x3 : Vec Ideal S64 .f32)
    (x4 : Vec Ideal S64x64 .f32) (x5 : Vec Ideal S64x64 .f32) (x6 : Vec Ideal S64 .f32) (x7 : Vec Ideal S64x64 .f32)
    (x8 : Vec Ideal S64x64 .f32) (x9 : Vec Ideal S64 .f32) (x10 : Vec Ideal S64x12 .f32) (x11 : Vec Ideal S64 .f32)
    (x12 : Vec Ideal S12 .f32) :
    k0_pay6 (F := Ideal) (k0_pay4 x0 x2 x3 x5 x6 x8 x9) (k0_pay5 x0 x2 x3 x5 x6 x8 x9) x10 x12
      = (netOfBlocks x1 x2 x3 x4 x5 x6 x7 x8 x9 x10 x11 x12).residArr x0 := by
  funext j
  obtain ⟨p, q, rfl⟩ : ∃ (p : Fin 8192) (q : Fin 12), j = ix2 p q := ⟨j 0, j 1, eq_ix2 j⟩
  rw [pay6_apply, Net.residArr_ix2]
  simp only [pay5_apply, pay4_apply, pay3_apply, pay2_apply]
  rfl

/-- The second stored block: the last unit's weights carried back through the three hidden layers, each step gated by
    that layer's slopes, then `log |·|`: the last Jacobian row of each row. -/
theorem logdet_block (x0 : Vec Ideal S8192x12 .f32) (x1 : Vec Ideal S64x12 .f32) (x2 : Vec Ideal S12x64 .f32) (x3 : Vec Ideal S64 .f32)
    (x4 : Vec Ideal S64x64 .f32) (x5 : Vec Ideal S64x64 .f32) (x6 : Vec Ideal S64 .f32) (x7 : Vec Ideal S64x64 .f32)
    (x8 : Vec Ideal S64x64 .f32) (x9 : Vec Ideal S64 .f32) (x10 : Vec Ideal S64x12 .f32) (x11 : Vec Ideal S64 .f32)
    (x12 : Vec Ideal S12 .f32) :
    k0_pay1 (F := Ideal) (k0_pay7 (k0_pay2 x0 x2 x3))
        (k0_pay8 (k0_pay3 x0 x2 x3 x5 x6) (k0_pay4 x0 x2 x3 x5 x6 x8 x9) x11 x7) x4 x1
      = (netOfBlocks x1 x2 x3 x4 x5 x6 x7 x8 x9 x10 x11 x12).logdetArr x0 := by
  funext j
  obtain ⟨p, q, rfl⟩ : ∃ (p : Fin 8192) (q : Fin 12), j = ix2 p q := ⟨j 0, j 1, eq_ix2 j⟩
  rw [pay1_apply, Net.logdetArr_ix2]
  simp only [pay7_apply, pay8_apply, pay4_apply, pay3_apply, pay2_apply]
  rfl

end Cert.KernelIdeal.Rows

end
-- ==== Proof.KernelArrays.lean ====
/-
  From blocks to arrays: what the kernel's two result arrays hold after the run.

  The call runs over 64 grid points; point `t` stages rows `8192·t … 8192·t + 8191` of the samples and the whole of each
  of the twelve parameter arrays, and writes back rows `8192·t … 8192·t + 8191` of each result. Five of the parameter
  arrays are made on the host before the call: the transposes of the four weight matrices and the last row of the
  output layer's matrix. So the parameters the body reads are the network's parameters as the eight argument arrays hold
  them (`Cert.MlpRow.netOfArgs`), whatever the point; each stored block is the network's result of the block's rows
  (`Cert.KernelIdeal.Rows.resid_block`, `logdet_block`), which are rows of the argument; and the 64 blocks tile each
  result array. Hence each result array is the network's result of every row of the samples.
-/
import proofs.«181091_j37460704756280_1_alg».proof.Proof.Gen.KernelIdeal.Value
import proofs.«181091_j37460704756280_1_alg».proof.Proof.KernelNet
import Idealize.ShloMosaic.Lib.Pipeline.Value
import Idealize.ShloMosaic.Lib.StableHlo.Run

noncomputable section

open scoped BigOperators

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Rows Cert.MlpRow

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## The arrays the host makes before the call -/

/-- The first layer's weights transposed. -/
theorem V_v0 (c : Dev nD) : (V m c main_v0 : S12x64.Idx → EReal)
    = transpose S12x64 [1, 0] (m ((c : Thread nD τ).loc main_arg1)) transposes_S64x12_S12x64_1_0 := by
  dsimp only [Gen.V, Gen.hostOps0]; after_results <;> rfl

/-- The second layer's. -/
theorem V_v1 (c : Dev nD) : (V m c main_v1 : S64x64.Idx → EReal)
    = transpose S64x64 [1, 0] (m ((c : Thread nD τ).loc main_arg3)) transposes_S64x64_S64x64_1_0 := by
  dsimp only [Gen.V, Gen.hostOps0]; after_results <;> rfl

/-- The third layer's. -/
theorem V_v2 (c : Dev nD) : (V m c main_v2 : S64x64.Idx → EReal)
    = transpose S64x64 [1, 0] (m ((c : Thread nD τ).loc main_arg5)) transposes_S64x64_S64x64_1_0 := by
  dsimp only [Gen.V, Gen.hostOps0]; after_results <;> rfl

/-- The output layer's. -/
theorem V_v3 (c : Dev nD) : (V m c main_v3 : S64x12.Idx → EReal)
    = transpose S64x12 [1, 0] (m ((c : Thread nD τ).loc main_arg7)) transposes_S12x64_S64x12_1_0 := by
  dsimp only [Gen.V, Gen.hostOps0]; after_results <;> rfl

/-- The output layer's last row, as a vector. -/
theorem V_v5 (c : Dev nD) : (V m c main_v5 : S64.Idx → EReal)
    = shapeCast S64 (extractStridedSlice S1x64 ![11, 0] (m ((c : Thread nD τ).loc main_arg7)) slices_S12x64_S1x64_11_0) shapeCasts_S1x64_S64 := by
  dsimp only [Gen.V, Gen.hostOps0]; after_results <;> rfl

/-- A transposed weight at `(k, j)` is the stored weight at `(j, k)`. -/
theorem V_v0_apply (c : Dev nD) (k : Fin 12) (j : Fin 64) :
    (V m c main_v0 : S12x64.Idx → EReal) (ix2 k j) = (m ((c : Thread nD τ).loc main_arg1) : S64x12.Idx → EReal) (ix2 j k) := by
  rw [V_v0]
  exact transpose_apply [1, 0] _ transposes_S64x12_S12x64_1_0 (ix2 k j) (ix2 j k) (fun b => match b with
    | ⟨0, _⟩ => rfl
    | ⟨1, _⟩ => rfl)

theorem V_v1_apply (c : Dev nD) (k : Fin 64) (j : Fin 64) :
    (V m c main_v1 : S64x64.Idx → EReal) (ix2 k j) = (m ((c : Thread nD τ).loc main_arg3) : S64x64.Idx → EReal) (ix2 j k) := by
  rw [V_v1]
  exact transpose_apply [1, 0] _ transposes_S64x64_S64x64_1_0 (ix2 k j) (ix2 j k) (fun b => match b with
    | ⟨0, _⟩ => rfl
    | ⟨1, _⟩ => rfl)

theorem V_v2_apply (c : Dev nD) (k : Fin 64) (j : Fin 64) :
    (V m c main_v2 : S64x64.Idx → EReal) (ix2 k j) = (m ((c : Thread nD τ).loc main_arg5) : S64x64.Idx → EReal) (ix2 j k) := by
  rw [V_v2]
  exact transpose_apply [1, 0] _ transposes_S64x64_S64x64_1_0 (ix2 k j) (ix2 j k) (fun b => match b with
    | ⟨0, _⟩ => rfl
    | ⟨1, _⟩ => rfl)

theorem V_v3_apply (c : Dev nD) (k : Fin 64) (j : Fin 12) :
    (V m c main_v3 : S64x12.Idx → EReal) (ix2 k j) = (m ((c : Thread nD τ).loc main_arg7) : S12x64.Idx → EReal) (ix2 j k) := by
  rw [V_v3]
  exact transpose_apply [1, 0] _ transposes_S12x64_S64x12_1_0 (ix2 k j) (ix2 j k) (fun b => match b with
    | ⟨0, _⟩ => rfl
    | ⟨1, _⟩ => rfl)

/-- The last-row vector at `k` is the output layer's matrix at `(11, k)`. -/
theorem V_v5_apply (c : Dev nD) (k : Fin 64) :
    (V m c main_v5 : S64.Idx → EReal) (ix1 k)
      = (m ((c : Thread nD τ).loc main_arg7) : S12x64.Idx → EReal) (ix2 (⟨11, by decide⟩ : Fin 12) k) := by
  rw [V_v5]
  refine (shapeCast_apply _ shapeCasts_S1x64_S64 (ix1 k) (ix2 (⟨0, Nat.one_pos⟩ : Fin 1) k) ?_).trans
    (extractStridedSlice_apply ![11, 0] _ slices_S12x64_S1x64_11_0 (ix2 (⟨0, Nat.one_pos⟩ : Fin 1) k)
      (ix2 (⟨11, by decide⟩ : Fin 12) k) (fun a => match a with
        | ⟨0, _⟩ => rfl
        | ⟨1, _⟩ => by show k.val = 0 + k.val; omega))
  rewrite [Shape.rowMajor_val_two, Shape.rowMajor_val_one]
  show 0 * 64 + k.val = k.val
  omega

/-! ## The index maps, decided over the 64 points -/

/-- Every parameter window sits at block 0 on every axis, at every point. -/
theorem param_idx : ∀ t : Fin cfg0.N,
    win0_1.index t (0 : Fin 2) = 0
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 1) = 0 :=
  (by decide +kernel : ∀ t : Fin grid0.N, _)

/-- The sample window and the two result windows sit at block `t` of the rows, block 0 of the columns. -/
theorem row_idx : ∀ t : Fin cfg0.N,
    win0_0.index t (0 : Fin 2) = t.val ∧ win0_0.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-! ## The blocks the body reads -/

/-- Window 1 stages the whole of its array at every point. -/
theorem blk1_eq (c : Dev nD) (t : Fin cfg0.N) :
    (iblk m c 1 t : Vec Ideal S64x12 .f32) = (V m c main_arg1 : S64x12.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg1 (((cfg0.win 1).blk t).view.emb y) = V m c main_arg1 y
  refine congrArg (V m c main_arg1) (funext fun a => Fin.ext ?_)
  match a with
    | ⟨0, _⟩ => show win0_1.index t (0 : Fin 2) * 64 + 1 * (y 0).val = (y 0).val; rw [e1_0]; omega
    | ⟨1, _⟩ => show win0_1.index t (1 : Fin 2) * 12 + 1 * (y 1).val = (y 1).val; rw [e1_1]; omega

/-- Window 2 stages the whole of its array at every point. -/
theorem blk2_eq (c : Dev nD) (t : Fin cfg0.N) :
    (iblk m c 2 t : Vec Ideal S12x64 .f32) = (V m c main_v0 : S12x64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_v0 (((cfg0.win 2).blk t).view.emb y) = V m c main_v0 y
  refine congrArg (V m c main_v0) (funext fun a => Fin.ext ?_)
  match a with
    | ⟨0, _⟩ => show win0_2.index t (0 : Fin 2) * 12 + 1 * (y 0).val = (y 0).val; rw [e2_0]; omega
    | ⟨1, _⟩ => show win0_2.index t (1 : Fin 2) * 64 + 1 * (y 1).val = (y 1).val; rw [e2_1]; omega

/-- Window 3 stages the whole of its array at every point. -/
theorem blk3_eq (c : Dev nD) (t : Fin cfg0.N) :
    (iblk m c 3 t : Vec Ideal S64 .f32) = (V m c main_arg2 : S64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg2 (((cfg0.win 3).blk t).view.emb y) = V m c main_arg2 y
  refine congrArg (V m c main_arg2) (funext fun a => Fin.ext ?_)
  match a with
    | ⟨0, _⟩ => show win0_3.index t (0 : Fin 1) * 64 + 1 * (y 0).val = (y 0).val; rw [e3_0]; omega

/-- Window 4 stages the whole of its array at every point. -/
theorem blk4_eq (c : Dev nD) (t : Fin cfg0.N) :
    (iblk m c 4 t : Vec Ideal S64x64 .f32) = (V m c main_arg3 : S64x64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg3 (((cfg0.win 4).blk t).view.emb y) = V m c main_arg3 y
  refine congrArg (V m c main_arg3) (funext fun a => Fin.ext ?_)
  match a with
    | ⟨0, _⟩ => show win0_4.index t (0 : Fin 2) * 64 + 1 * (y 0).val = (y 0).val; rw [e4_0]; omega
    | ⟨1, _⟩ => show win0_4.index t (1 : Fin 2) * 64 + 1 * (y 1).val = (y 1).val; rw [e4_1]; omega

/-- Window 5 stages the whole of its array at every point. -/
theorem blk5_eq (c : Dev nD) (t : Fin cfg0.N) :
    (iblk m c 5 t : Vec Ideal S64x64 .f32) = (V m c main_v1 : S64x64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_v1 (((cfg0.win 5).blk t).view.emb y) = V m c main_v1 y
  refine congrArg (V m c main_v1) (funext fun a => Fin.ext ?_)
  match a with
    | ⟨0, _⟩ => show win0_5.index t (0 : Fin 2) * 64 + 1 * (y 0).val = (y 0).val; rw [e5_0]; omega
    | ⟨1, _⟩ => show win0_5.index t (1 : Fin 2) * 64 + 1 * (y 1).val = (y 1).val; rw [e5_1]; omega

/-- Window 6 stages the whole of its array at every point. -/
theorem blk6_eq (c : Dev nD) (t : Fin cfg0.N) :
    (iblk m c 6 t : Vec Ideal S64 .f32) = (V m c main_arg4 : S64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg4 (((cfg0.win 6).blk t).view.emb y) = V m c main_arg4 y
  refine congrArg (V m c main_arg4) (funext fun a => Fin.ext ?_)
  match a with
    | ⟨0, _⟩ => show win0_6.index t (0 : Fin 1) * 64 + 1 * (y 0).val = (y 0).val; rw [e6_0]; omega

/-- Window 7 stages the whole of its array at every point. -/
theorem blk7_eq (c : Dev nD) (t : Fin cfg0.N) :
    (iblk m c 7 t : Vec Ideal S64x64 .f32) = (V m c main_arg5 : S64x64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg5 (((cfg0.win 7).blk t).view.emb y) = V m c main_arg5 y
  refine congrArg (V m c main_arg5) (funext fun a => Fin.ext ?_)
  match a with
    | ⟨0, _⟩ => show win0_7.index t (0 : Fin 2) * 64 + 1 * (y 0).val = (y 0).val; rw [e7_0]; omega
    | ⟨1, _⟩ => show win0_7.index t (1 : Fin 2) * 64 + 1 * (y 1).val = (y 1).val; rw [e7_1]; omega

/-- Window 8 stages the whole of its array at every point. -/
theorem blk8_eq (c : Dev nD) (t : Fin cfg0.N) :
    (iblk m c 8 t : Vec Ideal S64x64 .f32) = (V m c main_v2 : S64x64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_v2 (((cfg0.win 8).blk t).view.emb y) = V m c main_v2 y
  refine congrArg (V m c main_v2) (funext fun a => Fin.ext ?_)
  match a with
    | ⟨0, _⟩ => show win0_8.index t (0 : Fin 2) * 64 + 1 * (y 0).val = (y 0).val; rw [e8_0]; omega
    | ⟨1, _⟩ => show win0_8.index t (1 : Fin 2) * 64 + 1 * (y 1).val = (y 1).val; rw [e8_1]; omega

/-- Window 9 stages the whole of its array at every point. -/
theorem blk9_eq (c : Dev nD) (t : Fin cfg0.N) :
    (iblk m c 9 t : Vec Ideal S64 .f32) = (V m c main_arg6 : S64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg6 (((cfg0.win 9).blk t).view.emb y) = V m c main_arg6 y
  refine congrArg (V m c main_arg6) (funext fun a => Fin.ext ?_)
  match a with
    | ⟨0, _⟩ => show win0_9.index t (0 : Fin 1) * 64 + 1 * (y 0).val = (y 0).val; rw [e9_0]; omega

/-- Window 10 stages the whole of its array at every point. -/
theorem blk10_eq (c : Dev nD) (t : Fin cfg0.N) :
    (iblk m c 10 t : Vec Ideal S64x12 .f32) = (V m c main_v3 : S64x12.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_v3 (((cfg0.win 10).blk t).view.emb y) = V m c main_v3 y
  refine congrArg (V m c main_v3) (funext fun a => Fin.ext ?_)
  match a with
    | ⟨0, _⟩ => show win0_10.index t (0 : Fin 2) * 64 + 1 * (y 0).val = (y 0).val; rw [e10_0]; omega
    | ⟨1, _⟩ => show win0_10.index t (1 : Fin 2) * 12 + 1 * (y 1).val = (y 1).val; rw [e10_1]; omega

/-- Window 11 stages the whole of its array at every point. -/
theorem blk11_eq (c : Dev nD) (t : Fin cfg0.N) :
    (iblk m c 11 t : Vec Ideal S64 .f32) = (V m c main_v5 : S64.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_v5 (((cfg0.win 11).blk t).view.emb y) = V m c main_v5 y
  refine congrArg (V m c main_v5) (funext fun a => Fin.ext ?_)
  match a with
    | ⟨0, _⟩ => show win0_11.index t (0 : Fin 1) * 64 + 1 * (y 0).val = (y 0).val; rw [e11_0]; omega

/-- Window 12 stages the whole of its array at every point. -/
theorem blk12_eq (c : Dev nD) (t : Fin cfg0.N) :
    (iblk m c 12 t : Vec Ideal S12 .f32) = (V m c main_arg8 : S12.Idx → EReal) := by
  obtain ⟨e1_0, e1_1, e2_0, e2_1, e3_0, e4_0, e4_1, e5_0, e5_1, e6_0, e7_0, e7_1, e8_0, e8_1, e9_0, e10_0, e10_1, e11_0, e12_0⟩ := param_idx t
  funext y
  unfold iblk
  rw [View.read_apply]
  show V m c main_arg8 (((cfg0.win 12).blk t).view.emb y) = V m c main_arg8 y
  refine congrArg (V m c main_arg8) (funext fun a => Fin.ext ?_)
  match a with
    | ⟨0, _⟩ => show win0_12.index t (0 : Fin 1) * 12 + 1 * (y 0).val = (y 0).val; rw [e12_0]; omega

/-- The sample window's block at point `t`: rows `8192·t …` of the samples. -/
theorem blk0_apply (c : Dev nD) (t : Fin cfg0.N) (p : Fin 8192) (k : Fin 12) (i : S524288x12.Idx)
    (h0 : (i 0).val = t.val * 8192 + p.val) (h1 : (i 1).val = k.val) :
    (iblk m c 0 t : Vec Ideal S8192x12 .f32) (ix2 p k) = (m ((c : Thread nD τ).loc main_arg0) : S524288x12.Idx → EReal) i := by
  obtain ⟨e0, e1, -, -, -, -⟩ := row_idx t
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 8192 + 1 * p.val = (i 0).val; rw [e0, h0]; omega
  | ⟨1, _⟩ => show win0_0.index t (1 : Fin 2) * 12 + 1 * k.val = (i 1).val; rw [e1, h1]; omega

/-! ## The parameters the body reads are the arguments' -/

/-- The network of the eight parameter arguments on core `c`. -/
abbrev net (c : Dev nD) : Net :=
  netOfArgs (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The network read off the twelve staged parameter blocks is that network, at every point: a stored matrix's block is
    the matrix, a transposed one's block read at `(k, j)` is the matrix at `(j, k)`, the last-row vector's block is row 11
    of the output layer's matrix. -/
theorem net_eq (c : Dev nD) (t : Fin cfg0.N) : netOfBlocks (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = net m c := by
  rw [blk1_eq m c t, blk2_eq m c t, blk3_eq m c t, blk4_eq m c t, blk5_eq m c t, blk6_eq m c t, blk7_eq m c t,
    blk8_eq m c t, blk9_eq m c t, blk10_eq m c t, blk11_eq m c t, blk12_eq m c t,
    V_main_arg1 m c, V_main_arg2 m c, V_main_arg3 m c, V_main_arg4 m c, V_main_arg5 m c, V_main_arg6 m c,
    V_main_arg8 m c]
  unfold netOfBlocks
  have h0 : (fun (k : Fin 12) (j : Fin 64) => (V m c main_v0 : S12x64.Idx → EReal) (ix2 k j))
      = fun k j => (m ((c : Thread nD τ).loc main_arg1) : S64x12.Idx → EReal) (ix2 j k) :=
    funext fun k => funext fun j => V_v0_apply m c k j
  have h1 : (fun (k : Fin 64) (j : Fin 64) => (V m c main_v1 : S64x64.Idx → EReal) (ix2 k j))
      = fun k j => (m ((c : Thread nD τ).loc main_arg3) : S64x64.Idx → EReal) (ix2 j k) :=
    funext fun k => funext fun j => V_v1_apply m c k j
  have h2 : (fun (k : Fin 64) (j : Fin 64) => (V m c main_v2 : S64x64.Idx → EReal) (ix2 k j))
      = fun k j => (m ((c : Thread nD τ).loc main_arg5) : S64x64.Idx → EReal) (ix2 j k) :=
    funext fun k => funext fun j => V_v2_apply m c k j
  have h3 : (fun (k : Fin 64) (j : Fin 12) => (V m c main_v3 : S64x12.Idx → EReal) (ix2 k j))
      = fun k j => (m ((c : Thread nD τ).loc main_arg7) : S12x64.Idx → EReal) (ix2 j k) :=
    funext fun k => funext fun j => V_v3_apply m c k j
  have h5 : (fun (k : Fin 64) => (V m c main_v5 : S64.Idx → EReal) (ix1 k))
      = fun k => (m ((c : Thread nD τ).loc main_arg7) : S12x64.Idx → EReal) (ix2 (⟨11, by decide⟩ : Fin 12) k) :=
    funext fun k => V_v5_apply m c k
  rw [h0, h1, h2, h3, h5]
  rfl

/-! ## What each point writes back, and the arrays after the run -/

/-- WHAT POINT `t` WRITES BACK to the first result: rows `8192·t …` of the network's first result of the samples. -/
theorem flushed13_eq (c : Dev nD) (t : Fin cfg0.N) :
    (dats m 0 c).flushed 13 t
      = ((cfg0.win 13).blk t).view.read (Elt Ideal) ((net m c).residArr (m ((c : Thread nD τ).loc main_arg0))) := by
  rw [Value.flushed13]
  unfold out0_13
  rw [View.canon_unit_zero zero2]
  simp only [View.ld_unit_zero (S := S8192x12) zero2, View.ld_unit_zero (S := S12x64) zero2,
    View.ld_unit_zero (S := S64) zero1, View.ld_unit_zero (S := S64x64) zero2, View.ld_unit_zero (S := S64x12) zero2,
    View.ld_unit_zero (S := S12) zero1]
  rw [resid_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), net_eq m c t]
  obtain ⟨-, -, e0, e1, -, -⟩ := row_idx t
  funext y
  show (net m c).residArr (iblk m c 0 t) y
    = (net m c).residArr (m ((c : Thread nD τ).loc main_arg0)) (((cfg0.win 13).blk t).view.emb y)
  refine Net.residArr_rows _ _ _ _ _ (Fin.ext ?_) (fun k => blk0_apply m c t (y 0) k _ ?_ rfl)
  · show (y 1).val = win0_13.index t (1 : Fin 2) * 12 + 1 * (y 1).val
    rw [e1]; omega
  · show win0_13.index t (0 : Fin 2) * 8192 + 1 * (y 0).val = t.val * 8192 + (y 0).val
    rw [e0]; omega

/-- An index of the result array is in point `t`'s block iff each coordinate is in the block's range on its axis. -/
theorem mem_blk13 (t : Fin cfg0.N) (i : S524288x12.Idx) :
    i ∈ ((cfg0.win 13).blk t).view.set ↔ ∀ a : Fin 2, win0_13.index t a * S8192x12.size a ≤ (i a).val
      ∧ (i a).val < win0_13.index t a * S8192x12.size a + S8192x12.size a := by
  show i ∈ ((View.whole main_v6_0).slice (win0_13.rect t)).set ↔ _
  rw [View.set_slice_whole, Rect.mem_set_unit]
  exact Iff.rfl

/-- The 64 blocks tile the result array: row `r` is in the block of point `r / 8192`. -/
theorem cover13 (i : S524288x12.Idx) :
    ∃ t : Fin cfg0.N, (cfg0.win 13).flush t = true ∧ i ∈ ((cfg0.win 13).blk t).view.set := by
  have hi0 : (i 0).val < 524288 := (i 0).isLt
  have hi1 : (i 1).val < 12 := (i 1).isLt
  have hN : cfg0.N = 64 := N_0
  obtain ⟨t, ht⟩ : ∃ t : Fin cfg0.N, t.val = (i 0).val / 8192 := ⟨⟨(i 0).val / 8192, by rw [hN]; omega⟩, rfl⟩
  obtain ⟨-, -, e0, e1, -, -⟩ := row_idx t
  refine ⟨t, flush0_13 t, ?_⟩
  rw [mem_blk13]
  intro a
  match a with
  | ⟨0, _⟩ =>
    show win0_13.index t (0 : Fin 2) * 8192 ≤ (i 0).val ∧ (i 0).val < win0_13.index t (0 : Fin 2) * 8192 + 8192
    rw [e0, ht]; omega
  | ⟨1, _⟩ =>
    show win0_13.index t (1 : Fin 2) * 12 ≤ (i 1).val ∧ (i 1).val < win0_13.index t (1 : Fin 2) * 12 + 12
    rw [e1]; omega

/-- So the first result array ends holding the network's first result of every row of the samples. -/
theorem final13 (c : Dev nD) :
    (dats m 0 c).arrAt 13 cfg0.N = (net m c).residArr (m ((c : Thread nD τ).loc main_arg0)) :=
  (dats m 0 c).arrAt_eq_of_cover 13 _ (fun t _ => flushed13_eq m c t) cover13

/-- WHAT POINT `t` WRITES BACK to the second result: rows `8192·t …` of the network's second result of the samples. -/
theorem flushed14_eq (c : Dev nD) (t : Fin cfg0.N) :
    (dats m 0 c).flushed 14 t
      = ((cfg0.win 14).blk t).view.read (Elt Ideal) ((net m c).logdetArr (m ((c : Thread nD τ).loc main_arg0))) := by
  rw [Value.flushed14]
  unfold out0_14
  rw [View.canon_unit_zero zero2]
  simp only [View.ld_unit_zero (S := S8192x12) zero2, View.ld_unit_zero (S := S12x64) zero2,
    View.ld_unit_zero (S := S64) zero1, View.ld_unit_zero (S := S64x64) zero2, View.ld_unit_zero (S := S64x12) zero2,
    View.ld_unit_zero (S := S12) zero1]
  rw [logdet_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), net_eq m c t]
  obtain ⟨-, -, -, -, e0, e1⟩ := row_idx t
  funext y
  show (net m c).logdetArr (iblk m c 0 t) y
    = (net m c).logdetArr (m ((c : Thread nD τ).loc main_arg0)) (((cfg0.win 14).blk t).view.emb y)
  refine Net.logdetArr_rows _ _ _ _ _ (Fin.ext ?_) (fun k => blk0_apply m c t (y 0) k _ ?_ rfl)
  · show (y 1).val = win0_14.index t (1 : Fin 2) * 12 + 1 * (y 1).val
    rw [e1]; omega
  · show win0_14.index t (0 : Fin 2) * 8192 + 1 * (y 0).val = t.val * 8192 + (y 0).val
    rw [e0]; omega

/-- An index of the result array is in point `t`'s block iff each coordinate is in the block's range on its axis. -/
theorem mem_blk14 (t : Fin cfg0.N) (i : S524288x12.Idx) :
    i ∈ ((cfg0.win 14).blk t).view.set ↔ ∀ a : Fin 2, win0_14.index t a * S8192x12.size a ≤ (i a).val
      ∧ (i a).val < win0_14.index t a * S8192x12.size a + S8192x12.size a := by
  show i ∈ ((View.whole main_v6_1).slice (win0_14.rect t)).set ↔ _
  rw [View.set_slice_whole, Rect.mem_set_unit]
  exact Iff.rfl

/-- The 64 blocks tile the result array: row `r` is in the block of point `r / 8192`. -/
theorem cover14 (i : S524288x12.Idx) :
    ∃ t : Fin cfg0.N, (cfg0.win 14).flush t = true ∧ i ∈ ((cfg0.win 14).blk t).view.set := by
  have hi0 : (i 0).val < 524288 := (i 0).isLt
  have hi1 : (i 1).val < 12 := (i 1).isLt
  have hN : cfg0.N = 64 := N_0
  obtain ⟨t, ht⟩ : ∃ t : Fin cfg0.N, t.val = (i 0).val / 8192 := ⟨⟨(i 0).val / 8192, by rw [hN]; omega⟩, rfl⟩
  obtain ⟨-, -, -, -, e0, e1⟩ := row_idx t
  refine ⟨t, flush0_14 t, ?_⟩
  rw [mem_blk14]
  intro a
  match a with
  | ⟨0, _⟩ =>
    show win0_14.index t (0 : Fin 2) * 8192 ≤ (i 0).val ∧ (i 0).val < win0_14.index t (0 : Fin 2) * 8192 + 8192
    rw [e0, ht]; omega
  | ⟨1, _⟩ =>
    show win0_14.index t (1 : Fin 2) * 12 ≤ (i 1).val ∧ (i 1).val < win0_14.index t (1 : Fin 2) * 12 + 12
    rw [e1]; omega

/-- So the second result array ends holding the network's second result of every row of the samples. -/
theorem final14 (c : Dev nD) :
    (dats m 0 c).arrAt 14 cfg0.N = (net m c).logdetArr (m ((c : Thread nD τ).loc main_arg0)) :=
  (dats m 0 c).arrAt_eq_of_cover 14 _ (fun t _ => flushed14_eq m c t) cover14

/-! ## The run, read -/

/-- Every weakly fair execution of the kernel program ends with the two result arrays at the network's two results of
    the samples, row by row, and the nine arguments unchanged. -/
theorem run : θ_run defs (onTc (τ := τ) (main (F := Ideal))) ⟨m, fun _ => 0, ρ⟩ fun r => ∀ c : Dev nD,
      r.2.mem ((c : Thread nD τ).loc main_v6_0) = (net m c).residArr (m ((c : Thread nD τ).loc main_arg0))
      ∧ r.2.mem ((c : Thread nD τ).loc main_v6_1) = (net m c).logdetArr (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final13 m c), (h c).2.1.trans (final14 m c), (h c).2.2⟩)
    (Value.run_blocks m ρ)

end Cert.KernelIdeal.Arrays

end
-- ==== Proof.RefRows.lean ====
/-
  The reference's values, read one entry at a time.

  The reference runs the same network over all 524288 samples at once. Each of its named intermediate values is a
  matrix with one row per sample, and entry `(r, q)` of each depends on row `r` of the samples only: a host product is
  the plain sum over the contracted coordinate, the forward products against a transposed weight matrix (so the weight
  is read at `(q, k)`), the backward ones against the matrix as stored (read at `(k, q)`); a bias is added along the
  columns; the rectifier and its slope act entry by entry. Composed, the two results are the network's two results
  (`Cert.MlpRow.Net`) of the samples' rows, the parameters read from the eight parameter arrays.
-/
import proofs.«181091_j37460704756280_1_alg».proof.Proof.Gen.ReferenceIdeal.Read
import proofs.«181091_j37460704756280_1_alg».proof.Proof.RowNet

noncomputable section

open scoped BigOperators

namespace Cert.ReferenceIdeal.Rows

open Idealize.ShloMosaic Idealize.ShloMosaic.TcCoe Idealize.ShloMosaic.ValueIdx
open Cert.ReferenceIdeal Cert.ReferenceIdeal.Read Cert.MlpRow

/-- A matrix index is the pair of its coordinates. -/
theorem ix2_of {n0 n1 : Nat} (i : (⟨2, ![n0, n1]⟩ : Shape).Idx) (a : Fin n0) (b : Fin n1) (h0 : i 0 = a) (h1 : i 1 = b) :
    i = ix2 a b := by subst h0; subst h1; exact eq_ix2 i

/-- A vector index is its one coordinate. -/
theorem ix1_of {n : Nat} (i : (⟨1, ![n]⟩ : Shape).Idx) (a : Fin n) (h0 : i 0 = a) : i = ix1 a := by subst h0; exact eq_ix1 i

/-! ## The forward pass -/

/-- The first hidden layer before its rectifier. -/
theorem z1_apply (x0 : (⟨S524288x12, .f32⟩ : BufTy).Contents (Elt Ideal)) (x1 : (⟨S64x12, .f32⟩ : BufTy).Contents (Elt Ideal)) (x2 : (⟨S64, .f32⟩ : BufTy).Contents (Elt Ideal)) (r : Fin 524288) (q : Fin 64) :
    val_main_v4 (F := Ideal) x0 x1 x2 (ix2 r q) = (∑ k : Fin 12, x0 (ix2 r k) * x1 (ix2 q k)) + x2 (ix1 q) := by
  rw [val_main_v4_apply, val_main_v1_apply, val_main_v3_apply, val_main_v2_apply]
  refine congrArg₂ (fun a b : EReal => a + b) (Finset.sum_congr rfl fun k _ => ?_) (congrArg x2 (ix1_of _ _ rfl))
  rw [val_main_v0_apply]
  exact congrArg₂ (fun a b : EReal => a * b) (congrArg x0 (ix2_of _ _ _ rfl rfl)) (congrArg x1 (ix2_of _ _ _ rfl rfl))

/-- The rectified first layer. -/
theorem h1_apply (x0 : (⟨S524288x12, .f32⟩ : BufTy).Contents (Elt Ideal)) (x1 : (⟨S64x12, .f32⟩ : BufTy).Contents (Elt Ideal)) (x2 : (⟨S64, .f32⟩ : BufTy).Contents (Elt Ideal)) (i : S524288x64.Idx) :
    val_main_v9 (F := Ideal) x0 x1 x2 i = act (val_main_v4 (F := Ideal) x0 x1 x2 i) := rfl

/-- The second hidden layer before its rectifier. -/
theorem z2_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (r : Fin 524288) (q : Fin 64) :
    val_main_v14 (F := Ideal) x0 x1 x2 x3 x4 (ix2 r q)
      = (∑ k : Fin 64, val_main_v9 (F := Ideal) x0 x1 x2 (ix2 r k) * x3 (ix2 q k)) + x4 (ix1 q) := by
  rw [val_main_v14_apply, val_main_v11_apply, val_main_v13_apply, val_main_v12_apply]
  refine congrArg₂ (fun a b : EReal => a + b) (Finset.sum_congr rfl fun k _ => ?_) (congrArg x4 (ix1_of _ _ rfl))
  rw [val_main_v10_apply]
  exact congrArg₂ (fun a b : EReal => a * b) (congrArg _ (ix2_of _ _ _ rfl rfl)) (congrArg x3 (ix2_of _ _ _ rfl rfl))

/-- The rectified second layer. -/
theorem h2_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (i : S524288x64.Idx) :
    val_main_v19 (F := Ideal) x0 x1 x2 x3 x4 i = act (val_main_v14 (F := Ideal) x0 x1 x2 x3 x4 i) := rfl

/-- The third hidden layer before its rectifier. -/
theorem z3_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (r : Fin 524288) (q : Fin 64) :
    val_main_v24 (F := Ideal) x0 x1 x2 x3 x4 x5 x6 (ix2 r q)
      = (∑ k : Fin 64, val_main_v19 (F := Ideal) x0 x1 x2 x3 x4 (ix2 r k) * x5 (ix2 q k)) + x6 (ix1 q) := by
  rw [val_main_v24_apply, val_main_v21_apply, val_main_v23_apply, val_main_v22_apply]
  refine congrArg₂ (fun a b : EReal => a + b) (Finset.sum_congr rfl fun k _ => ?_) (congrArg x6 (ix1_of _ _ rfl))
  rw [val_main_v20_apply]
  exact congrArg₂ (fun a b : EReal => a * b) (congrArg _ (ix2_of _ _ _ rfl rfl)) (congrArg x5 (ix2_of _ _ _ rfl rfl))

/-- The rectified third layer. -/
theorem h3_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (i : S524288x64.Idx) :
    val_main_v29 (F := Ideal) x0 x1 x2 x3 x4 x5 x6 i = act (val_main_v24 (F := Ideal) x0 x1 x2 x3 x4 x5 x6 i) := rfl

/-- The output layer: the first result. -/
theorem out_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (x8 : (⟨S12, .f32⟩ : BufTy).Contents (Elt Ideal)) (r : Fin 524288) (q : Fin 12) :
    val_main_v34 (F := Ideal) x0 x1 x2 x3 x4 x5 x6 x7 x8 (ix2 r q)
      = (∑ k : Fin 64, val_main_v29 (F := Ideal) x0 x1 x2 x3 x4 x5 x6 (ix2 r k) * x7 (ix2 q k)) + x8 (ix1 q) := by
  rw [val_main_v34_apply, val_main_v31_apply, val_main_v33_apply, val_main_v32_apply]
  refine congrArg₂ (fun a b : EReal => a + b) (Finset.sum_congr rfl fun k _ => ?_) (congrArg x8 (ix1_of _ _ rfl))
  rw [val_main_v30_apply]
  exact congrArg₂ (fun a b : EReal => a * b) (congrArg _ (ix2_of _ _ _ rfl rfl)) (congrArg x7 (ix2_of _ _ _ rfl rfl))

/-! ## The backward pass -/

/-- The rectifier's slope at the first layer. -/
theorem d1_apply (x0 : (⟨S524288x12, .f32⟩ : BufTy).Contents (Elt Ideal)) (x1 : (⟨S64x12, .f32⟩ : BufTy).Contents (Elt Ideal)) (x2 : (⟨S64, .f32⟩ : BufTy).Contents (Elt Ideal)) (i : S524288x64.Idx) :
    val_main_v38 (F := Ideal) x0 x1 x2 i = dact (val_main_v4 (F := Ideal) x0 x1 x2 i) := by
  rw [val_main_v38_apply, val_main_v37_apply, val_main_v36_apply, val_main_v35_apply, val_main_cst_5_apply,
    val_main_call3_v0_apply, val_main_cst_6_apply, val_main_call3_v1_apply, val_main_cst_7_apply]
  unfold dact pos
  rfl

/-- At the second. -/
theorem d2_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (i : S524288x64.Idx) :
    val_main_v42 (F := Ideal) x0 x1 x2 x3 x4 i = dact (val_main_v14 (F := Ideal) x0 x1 x2 x3 x4 i) := by
  rw [val_main_v42_apply, val_main_v41_apply, val_main_v40_apply, val_main_v39_apply, val_main_cst_8_apply,
    val_main_call4_v0_apply, val_main_cst_9_apply, val_main_call4_v1_apply, val_main_cst_10_apply]
  unfold dact pos
  rfl

/-- At the third. -/
theorem d3_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (i : S524288x64.Idx) :
    val_main_v46 (F := Ideal) x0 x1 x2 x3 x4 x5 x6 i = dact (val_main_v24 (F := Ideal) x0 x1 x2 x3 x4 x5 x6 i) := by
  rw [val_main_v46_apply, val_main_v45_apply, val_main_v44_apply, val_main_v43_apply, val_main_cst_11_apply,
    val_main_call5_v0_apply, val_main_cst_12_apply, val_main_call5_v1_apply, val_main_cst_13_apply]
  unfold dact pos
  rfl

/-- The last output unit's weights — row 11 of the output layer's matrix — laid along the columns of every row. -/
theorem l4_apply (x7 : (⟨S12x64, .f32⟩ : BufTy).Contents (Elt Ideal)) (r : Fin 524288) (k : Fin 64) :
    val_main_v50 (F := Ideal) x7 (ix2 r k) = x7 (ix2 (⟨11, by decide⟩ : Fin 12) k) := by
  rw [val_main_v50_apply, val_main_v49_apply, val_main_v48_apply, val_main_v47_apply]
  refine congrArg x7 (ix2_of _ _ _ (Fin.ext ?_) (Fin.ext ?_))
  · rfl
  · show k.val % 64 = k.val
    have := k.isLt
    omega

/-- Those weights gated by the third layer's slopes. -/
theorem u3_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (r : Fin 524288) (k : Fin 64) :
    val_main_v51 (F := Ideal) x0 x1 x2 x3 x4 x5 x6 x7 (ix2 r k)
      = x7 (ix2 (⟨11, by decide⟩ : Fin 12) k) * dact (val_main_v24 (F := Ideal) x0 x1 x2 x3 x4 x5 x6 (ix2 r k)) := by
  rw [val_main_v51_apply, l4_apply, d3_apply]
  rfl

/-- Carried back through the third layer's weights. -/
theorem b3_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (r : Fin 524288) (q : Fin 64) :
    val_main_v52 (F := Ideal) x0 x1 x2 x3 x4 x5 x6 x7 (ix2 r q)
      = ∑ k : Fin 64, val_main_v51 (F := Ideal) x0 x1 x2 x3 x4 x5 x6 x7 (ix2 r k) * x5 (ix2 k q) := by
  rw [val_main_v52_apply]
  refine Finset.sum_congr rfl fun k _ => ?_
  exact congrArg₂ (fun a b : EReal => a * b) (congrArg _ (ix2_of _ _ _ rfl rfl)) (congrArg x5 (ix2_of _ _ _ rfl rfl))

/-- Gated by the second layer's slopes. -/
theorem u2_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (i : S524288x64.Idx) :
    val_main_v53 (F := Ideal) x0 x1 x2 x3 x4 x5 x6 x7 i
      = val_main_v52 (F := Ideal) x0 x1 x2 x3 x4 x5 x6 x7 i * dact (val_main_v14 (F := Ideal) x0 x1 x2 x3 x4 i) := by
  rw [val_main_v53_apply, d2_apply]
  rfl

/-- Carried back through the second layer's weights. -/
theorem b2_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (r : Fin 524288) (q : Fin 64) :
    val_main_v54 (F := Ideal) x0 x1 x2 x3 x4 x5 x6 x7 (ix2 r q)
      = ∑ k : Fin 64, val_main_v53 (F := Ideal) x0 x1 x2 x3 x4 x5 x6 x7 (ix2 r k) * x3 (ix2 k q) := by
  rw [val_main_v54_apply]
  refine Finset.sum_congr rfl fun k _ => ?_
  exact congrArg₂ (fun a b : EReal => a * b) (congrArg _ (ix2_of _ _ _ rfl rfl)) (congrArg x3 (ix2_of _ _ _ rfl rfl))

/-- Gated by the first layer's slopes. -/
theorem u1_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (i : S524288x64.Idx) :
    val_main_v55 (F := Ideal) x0 x1 x2 x3 x4 x5 x6 x7 i
      = val_main_v54 (F := Ideal) x0 x1 x2 x3 x4 x5 x6 x7 i * dact (val_main_v4 (F := Ideal) x0 x1 x2 i) := by
  rw [val_main_v55_apply, d1_apply]
  rfl

/-- Carried back through the first layer's weights, then `log |·|`: the second result. -/
theorem ld_apply (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (r : Fin 524288) (q : Fin 12) :
    val_main_v58 (F := Ideal) x0 x1 x2 x3 x4 x5 x6 x7 (ix2 r q)
      = FloatOps.log (F := Ideal) (φ := .f32) (FloatOps.absf (F := Ideal) (φ := .f32)
          (∑ k : Fin 64, val_main_v55 (F := Ideal) x0 x1 x2 x3 x4 x5 x6 x7 (ix2 r k) * x1 (ix2 k q))) := by
  rw [val_main_v58_apply, val_main_v57_apply, val_main_v56_apply]
  refine congrArg (fun z => FloatOps.log (F := Ideal) (φ := .f32) (FloatOps.absf (F := Ideal) (φ := .f32) z)) ?_
  refine Finset.sum_congr rfl fun k _ => ?_
  exact congrArg₂ (fun a b : EReal => a * b) (congrArg _ (ix2_of _ _ _ rfl rfl)) (congrArg x1 (ix2_of _ _ _ rfl rfl))

/-! ## The two results are the network's, row by row -/

/-- The first result is the forward pass of each row of the samples. -/
theorem resid_all (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (x8 : (⟨S12, .f32⟩ : BufTy).Contents (Elt Ideal)) :
    val_main_v34 (F := Ideal) x0 x1 x2 x3 x4 x5 x6 x7 x8 = (netOfArgs x1 x2 x3 x4 x5 x6 x7 x8).residArr x0 := by
  funext j
  obtain ⟨r, q, rfl⟩ : ∃ (r : Fin 524288) (q : Fin 12), j = ix2 r q := ⟨j 0, j 1, eq_ix2 j⟩
  rw [out_apply, Net.residArr_ix2]
  simp only [h3_apply, z3_apply, h2_apply, z2_apply, h1_apply, z1_apply]
  rfl

/-- The second result is `log |·|` of the last Jacobian row of each row of the samples (the output layer's bias, which
    it does not read, is any `x8`). -/
theorem logdet_all (x0 : (⟨S524288x12, .f32⟩ : BufTy).Contents (Elt Ideal)) (x1 : (⟨S64x12, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S12x64, .f32⟩ : BufTy).Contents (Elt Ideal)) (x8 : (⟨S12, .f32⟩ : BufTy).Contents (Elt Ideal)) :
    val_main_v58 (F := Ideal) x0 x1 x2 x3 x4 x5 x6 x7 = (netOfArgs x1 x2 x3 x4 x5 x6 x7 x8).logdetArr x0 := by
  funext j
  obtain ⟨r, q, rfl⟩ : ∃ (r : Fin 524288) (q : Fin 12), j = ix2 r q := ⟨j 0, j 1, eq_ix2 j⟩
  rw [ld_apply, Net.logdetArr_ix2]
  simp only [u1_apply, b2_apply, u2_apply, b3_apply, u3_apply, z3_apply, h2_apply, z2_apply, h1_apply, z1_apply]
  rfl

end Cert.ReferenceIdeal.Rows

end
-- ==== Proof.lean ====
/-
  A four-layer perceptron (12 → 64 → 64 → 64 → 12, leaky rectifier of slope 0.2) evaluated on 524288 samples, together
  with `log |·|` of the last row of each sample's Jacobian, computed in closed form: the last output unit's weights
  carried back through the three hidden layers, each step gated by that layer's rectifier slopes.

  The kernel streams the samples in 64 blocks of 8192 rows, keeps the weights resident (each hidden layer's matrix twice:
  as stored for the backward products, transposed on the host for the forward ones) and forms every product on the
  matrix unit from operands narrowed to bf16; the reference forms the same products on the host over all rows at once.
  Over the extended reals the narrowing is the identity and both kinds of product are the plain sum over the contracted
  coordinate, so every intermediate value of either program, at entry `(r, q)`, is one function of row `r` of the samples
  and of the eight parameter arrays: `Cert.MlpRow.Net`. No law beyond that is used: the two programs add and multiply
  the same terms in the same order, so nothing here needs the inputs to be finite.

  * `Proof/RowNet.lean`: the network on one row, and on a matrix of rows.
  * `Proof/KernelRows.lean`, `Proof/KernelNet.lean`: the kernel body's two stored blocks are the network's two results of
    the block's rows, the parameters read off the staged parameter blocks.
  * `Proof/KernelArrays.lean`: the staged parameter blocks are the argument arrays (five of them through a host
    transpose or slice), the 64 blocks tile each result array, hence the kernel's run.
  * `Proof/RefRows.lean`: the reference's two results are the network's two results of the samples' rows.
  * `Proof/LibRowDims.lean`, `Proof/LibRowBias.lean`: a plain contraction and a bias row, read at an entry.

  The three frames are the generated ones (the reference's is its generated run with the results dropped); the
  idealization rewrote nothing, so there is nothing to preserve.
-/
import proofs.«181091_j37460704756280_1_alg».proof.Defs
import proofs.«181091_j37460704756280_1_alg».proof.Proof.Gen.Kernel
import proofs.«181091_j37460704756280_1_alg».proof.Proof.Gen.Kernel.Skeleton
import proofs.«181091_j37460704756280_1_alg».proof.Proof.Gen.Kernel.Launch
import proofs.«181091_j37460704756280_1_alg».proof.Proof.Gen.Kernel.Points
import proofs.«181091_j37460704756280_1_alg».proof.Proof.Gen.Kernel.Frame
import proofs.«181091_j37460704756280_1_alg».proof.Proof.Gen.KernelIdeal
import proofs.«181091_j37460704756280_1_alg».proof.Proof.Gen.KernelIdeal.Skeleton
import proofs.«181091_j37460704756280_1_alg».proof.Proof.Gen.KernelIdeal.Launch
import proofs.«181091_j37460704756280_1_alg».proof.Proof.Gen.KernelIdeal.Points
import proofs.«181091_j37460704756280_1_alg».proof.Proof.Gen.KernelIdeal.Frame
import proofs.«181091_j37460704756280_1_alg».proof.Proof.Gen.ReferenceIdeal
import proofs.«181091_j37460704756280_1_alg».proof.Proof.Gen.Pre_finite_inputs
import proofs.«181091_j37460704756280_1_alg».proof.Proof.Gen.KernelIdeal.Value
import proofs.«181091_j37460704756280_1_alg».proof.Proof.Gen.ReferenceIdeal.Run
import proofs.«181091_j37460704756280_1_alg».proof.Proof.Gen.ReferenceIdeal.Read
import proofs.«181091_j37460704756280_1_alg».proof.Proof.KernelArrays
import proofs.«181091_j37460704756280_1_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the nine arguments both programs end with the network's two results of every row of the
    samples: the kernel's run (`Arrays.run`) and the reference's run read through `Rows.resid_all` / `logdet_all`, with the
    arguments' agreement rewritten. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v34_eq, Cert.ReferenceIdeal.Rows.resid_all, a0, a1, a2, a3, a4, a5, a6, a7, a8]
  · rw [Cert.ReferenceIdeal.Read.val_main_v58_eq,
      Cert.ReferenceIdeal.Rows.logdet_all _ _ _ _ _ _ _ _ (m' ((c.tc : Thread Cert.ReferenceIdeal.nD Cert.ReferenceIdeal.τ).loc Cert.ReferenceIdeal.main_arg8)),
      a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
